-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S_ : Shape := ⟨0, ![]⟩
abbrev S64x2048x1 : Shape := ⟨3, ![64, 2048, 1]⟩
abbrev S64x2048x65 : Shape := ⟨3, ![64, 2048, 65]⟩
abbrev S1x512x64 : Shape := ⟨3, ![1, 512, 64]⟩
abbrev S1x2048x64 : Shape := ⟨3, ![1, 2048, 64]⟩
abbrev S1x2048x65 : Shape := ⟨3, ![1, 2048, 65]⟩
abbrev S512x64 : Shape := ⟨2, ![512, 64]⟩
abbrev S2048x64 : Shape := ⟨2, ![2048, 64]⟩
abbrev S2048x65 : Shape := ⟨2, ![2048, 65]⟩
abbrev S512x2048 : Shape := ⟨2, ![512, 2048]⟩
abbrev S512 : Shape := ⟨1, ![512]⟩
abbrev S512x1 : Shape := ⟨2, ![512, 1]⟩
abbrev S512x65 : Shape := ⟨2, ![512, 65]⟩

abbrev nBuf : Space → Nat
  | .hbm => 11
  | .vmem => 8
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .f32⟩
  | .hbm, ⟨5, _⟩ => ⟨S64x2048x64, .f32⟩
  | .hbm, ⟨6, _⟩ => ⟨S_, .f32⟩
  | .hbm, ⟨7, _⟩ => ⟨S64x2048x1, .f32⟩
  | .hbm, ⟨8, _⟩ => ⟨S64x2048x65, .f32⟩
  | .hbm, ⟨9, _⟩ => ⟨S64x2048x64, .f32⟩
  | .hbm, ⟨10, _⟩ => ⟨S4x16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x65, .f32⟩
  | .local _ .vmem, ⟨5, _⟩ => ⟨S1x2048x65, .f32⟩
  | .local _ .vmem, ⟨6, _⟩ => ⟨S1x512x64, .f32⟩
  | .local _ .vmem, ⟨7, _⟩ => ⟨S1x512x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x65 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x16x2048x64_S64x2048x64 : S4x16x2048x64.ShapeCasts S64x2048x64
  bcast_S_S64x2048x1 : S_.BroadcastsInDim S64x2048x1 (![] : Fin 0 → Fin S64x2048x1.rank)
  concatenates_S64x2048x64_S64x2048x1_S64x2048x65_d2 : Shape.Concatenates [S64x2048x64, S64x2048x1] S64x2048x65 2
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x2048x65_S1x2048x65_0_0_0 : ∀ a, (![0, 0, 0] : Fin 3 → Nat) a + S1x2048x65.size a ≤ S1x2048x65.size a
  h_S1x2048x65 : 0 < S1x2048x65.numel
  shapeCasts_S1x2048x65_S2048x65 : S1x2048x65.ShapeCasts S2048x65
  reduces_S512x2048_S512 : S512x2048.Reduces [1] S512
  shapeCasts_S512_S512x1 : S512.ShapeCasts S512x1
  broadcasts_S512x1_S512x2048 : S512x1.Broadcasts S512x2048
  slices_S512x65_o0_64_S512x1 : S512x65.Slices ![0, 64] S512x1
  slices_S512x65_o0_0_S512x64 : S512x65.Slices ![0, 0] S512x64
  broadcasts_S512x1_S512x64 : S512x1.Broadcasts S512x64
  shapeCasts_S512x64_S1x512x64 : S512x64.ShapeCasts S1x512x64
  shapeCasts_S64x2048x64_S4x16x2048x64 : S64x2048x64.ShapeCasts S4x16x2048x64
  dot_S512x64_S2048x64_S512x2048_1_1_0_0_n_n_wf : DotDims.WF S512x64 S2048x64 S512x2048 [1] [1] [0] [0] [] []
  dot_S512x2048_S2048x65_S512x65_1_0_0_1_n_n_wf : DotDims.WF S512x2048 S2048x65 S512x65 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .f32 = 32 ∨ (Rect.block (s := S64x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x65.size a ≤ S64x2048x65.size a
  hwx0_2 : ∀ i : grid0.Coords, EltTy.bits .f32 = 32 ∨ (Rect.block (s := S64x2048x65) S1x2048x65.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S64x2048x64.size a
  hwx0_3 : ∀ i : grid0.Coords, EltTy.bits .f32 = 32 ∨ (Rect.block (s := S64x2048x64) S1x512x64.size (cc0_transform_3 i) (hinb0_3 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x65_S512x65_1_0_0_1_n_n : DotDims S512x2048 S2048x65 S512x65 where
  lhsContracting := [1]
  rhsContracting := [0]
  lhsNonContracting := [0]
  rhsNonContracting := [1]
  lhsBatch := []
  rhsBatch := []
  wf := dot_S512x2048_S2048x65_S512x65_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048x65.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x16x2048x2048, .f32⟩
  | .hbm, ⟨8, _⟩ => ⟨S4x16x2048x2048, .f32⟩
  | .hbm, ⟨9, _⟩ => ⟨S4x16x2048x2048, .f32⟩
  | .hbm, ⟨10, _⟩ => ⟨S_, .f32⟩
  | .hbm, ⟨11, _⟩ => ⟨S4x16x2048, .f32⟩
  | .hbm, ⟨12, _⟩ => ⟨S_, .f32⟩
  | .hbm, ⟨13, _⟩ => ⟨S4x16x2048, .f32⟩
  | .hbm, ⟨14, _⟩ => ⟨S4x16x2048, .f32⟩
  | .hbm, ⟨15, _⟩ => ⟨S4x16x2048x1, .f32⟩
  | .hbm, ⟨16, _⟩ => ⟨S4x16x2048x2048, .f32⟩
  | .hbm, ⟨17, _⟩ => ⟨S4x16x2048x2048, .f32⟩
  | .hbm, ⟨18, _⟩ => ⟨S4x16x2048x2048, .f32⟩
  | .hbm, ⟨19, _⟩ => ⟨S_, .f32⟩
  | .hbm, ⟨20, _⟩ => ⟨S4x16x2048, .f32⟩
  | .hbm, ⟨21, _⟩ => ⟨S4x16x2048x1, .f32⟩
  | .hbm, ⟨22, _⟩ => ⟨S4x16x2048x2048, .f32⟩
  | .hbm, ⟨23, _⟩ => ⟨S4x16x2048x2048, .f32⟩
  | .hbm, ⟨24, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Spec.lean ====
/-
  Scaled dot-product attention, one output element at a time, as each of the two programs computes it on the
  extended reals.  For a query row `qrow` (64 entries), the 2048 key rows `kmat` and the matching column `vcol` of the
  values:

  * the kernel scales every query entry by the f32 word 0x3E000000 (the dyadic 1/8) before the dot product with a key row,
    subtracts the row maximum, exponentiates, and divides the weighted sum of the value column by the weighted sum of
    a column of ones (the f32 word 0x3F800000) that was appended to the values;
  * the reference scales the dot product by `1 / sqrt 64` computed on the host, subtracts the row maximum (joined once
    more with minus infinity), exponentiates, divides every weight by the row's sum of weights (added to the f32 zero),
    and only then takes the weighted sum of the value column.

  The array functions `attnK` / `attnR` read these at every index `(b, h, r, d)` of a [4, 16, 2048, 64] array.
-/
import Idealize.ShloMosaic.PureOps.Ideal
import Idealize.ShloMosaic.Lib.ValueIdx

noncomputable section

namespace Cert.Attn

open Idealize.ShloMosaic Idealize.ShloMosaic.ValueIdx

/-- The shape of the three argument arrays and of the result: batch, head, sequence position, feature. -/
abbrev SQ : Shape := ⟨4, ![4, 16, 2048, 64]⟩

/-- The kernel's score of the query row against key row `j`: every query entry scaled by the word 0x3E000000 first. -/
def kScore (qrow : Fin 64 → EReal) (kmat : Fin 2048 → Fin 64 → EReal) (j : Fin 2048) : EReal :=
  ∑ e : Fin 64, (qrow e * Ideal.ofBits .f32 0x3E000000#32) * kmat j e

/-- The reference's score: the dot product, scaled afterwards by the host's `1 / sqrt 64`. -/
def rScore (qrow : Fin 64 → EReal) (kmat : Fin 2048 → Fin 64 → EReal) (j : Fin 2048) : EReal :=
  (∑ e : Fin 64, qrow e * kmat j e)
    * Ideal.div (Ideal.ofBits .f32 0x3F800000#32) (Ideal.sqrt (Ideal.ofBits .f32 0x42800000#32))

/-- A row's maximum, folded from the f32 word 0xFF800000 (minus infinity). -/
def rowMax (s : Fin 2048 → EReal) : EReal :=
  (Finset.univ : Finset (Fin 2048)).fold max (Ideal.ofBits .f32 0xFF800000#32) s

/-- One output element as the kernel computes it: the quotient of two weighted sums. -/
def kernelElem (qrow : Fin 64 → EReal) (kmat : Fin 2048 → Fin 64 → EReal) (vcol : Fin 2048 → EReal) : EReal :=
  Ideal.div
    (∑ j : Fin 2048, Ideal.exp (kScore qrow kmat j - rowMax (kScore qrow kmat)) * vcol j)
    (∑ j : Fin 2048, Ideal.exp (kScore qrow kmat j - rowMax (kScore qrow kmat)) * Ideal.ofBits .f32 0x3F800000#32)

/-- One output element as the reference computes it: the weighted sum of normalised weights. -/
def refElem (qrow : Fin 64 → EReal) (kmat : Fin 2048 → Fin 64 → EReal) (vcol : Fin 2048 → EReal) : EReal :=
  ∑ j : Fin 2048,
    Ideal.div
      (Ideal.exp (rScore qrow kmat j - max (Ideal.ofBits .f32 0xFF800000#32) (rowMax (rScore qrow kmat))))
      (Ideal.ofBits .f32 0x00000000#32
        + ∑ j' : Fin 2048, Ideal.exp (rScore qrow kmat j' - max (Ideal.ofBits .f32 0xFF800000#32) (rowMax (rScore qrow kmat))))
    * vcol j

/-- The kernel's result array as a function of the three argument arrays. -/
def attnK (q k v : SQ.Idx → EReal) : SQ.Idx → EReal := fun i =>
  kernelElem (fun e => q (ix4 (i 0 : Fin 4) (i 1 : Fin 16) (i 2 : Fin 2048) e))
    (fun j e => k (ix4 (i 0 : Fin 4) (i 1 : Fin 16) j e))
    (fun j => v (ix4 (i 0 : Fin 4) (i 1 : Fin 16) j (i 3 : Fin 64)))

/-- The reference's result array as a function of the three argument arrays. -/
def attnR (q k v : SQ.Idx → EReal) : SQ.Idx → EReal := fun i =>
  refElem (fun e => q (ix4 (i 0 : Fin 4) (i 1 : Fin 16) (i 2 : Fin 2048) e))
    (fun j e => k (ix4 (i 0 : Fin 4) (i 1 : Fin 16) j e))
    (fun j => v (ix4 (i 0 : Fin 4) (i 1 : Fin 16) j (i 3 : Fin 64)))

theorem attnK_apply (q k v : SQ.Idx → EReal) (b : Fin 4) (h : Fin 16) (r : Fin 2048) (d : Fin 64) :
    attnK q k v (ix4 b h r d)
      = kernelElem (fun e => q (ix4 b h r e)) (fun j e => k (ix4 b h j e)) (fun j => v (ix4 b h j d)) := rfl

theorem attnR_apply (q k v : SQ.Idx → EReal) (b : Fin 4) (h : Fin 16) (r : Fin 2048) (d : Fin 64) :
    attnR q k v (ix4 b h r d)
      = refElem (fun e => q (ix4 b h r e)) (fun j e => k (ix4 b h j e)) (fun j => v (ix4 b h j d)) := rfl

end Cert.Attn

end
-- ==== Proof.Payload.lean ====
/-
  The kernel body's one stored value, read at one index.

  The body loads a [1, 512, 64] block of queries, the [1, 2048, 64] keys and the [1, 2048, 65] values of one head (the
  values carry an appended column of ones at column 64), and stores one [1, 512, 64] block.  Read on the extended reals,
  where a change of float format is the identity, the stored value at (0, r, d) is

    * the scores  s j = ∑ e, (q (r, e) * 1/8) * k (j, e)            (the first product, contracting the feature axis),
    * their row maximum  m = max over j of s j, folded from minus infinity,
    * the weights  w j = exp (s j - m),
    * the second product  p c = ∑ j, w j * v (j, c)  over the 65 columns of the values,
    * and the quotient  p d / p 64,  where  p 64 = ∑ j, w j * 1  by the appended column of ones.

  Every layout operation in between (the casts that drop or add the leading unit axis, the keepdims column, its two
  broadcasts, the two slices of the second product) only renames an index; one small lemma per such operation says which.
-/
import proofs.«427072_j21741124452466_3_alg».proof.Proof.Gen.KernelIdeal.Skeleton
import proofs.«427072_j21741124452466_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KValue

open Cert.KernelIdeal Cert.KernelIdeal.Gen Idealize.ShloMosaic Idealize.ShloMosaic.ValueIdx

/-! ## The casts that drop or add the leading unit axis -/

/-- The query block viewed [512, 64] reads (0, r, e) at (r, e). -/
theorem cast_q_apply (v : Vec Ideal S1x512x64 .f32) (h : S1x512x64.ShapeCasts S512x64) (r : Fin 512) (e : Fin 64) :
    shapeCast S512x64 v h (ix2 r e) = v (ix3 (0 : Fin 1) r e) :=
  shapeCast_1ab_ab_apply v h r e

/-- The key block viewed [2048, 64] reads (0, j, e) at (j, e). -/
theorem cast_k_apply (v : Vec Ideal S1x2048x64 .f32) (h : S1x2048x64.ShapeCasts S2048x64) (j : Fin 2048) (e : Fin 64) :
    shapeCast S2048x64 v h (ix2 j e) = v (ix3 (0 : Fin 1) j e) :=
  shapeCast_1ab_ab_apply v h j e

/-- The value block viewed [2048, 65] reads (0, j, c) at (j, c). -/
theorem cast_v_apply (v : Vec Ideal S1x2048x65 .f32) (h : S1x2048x65.ShapeCasts S2048x65) (j : Fin 2048) (c : Fin 65) :
    shapeCast S2048x65 v h (ix2 j c) = v (ix3 (0 : Fin 1) j c) :=
  shapeCast_1ab_ab_apply v h j c

/-- The [512, 64] result stored as a [1, 512, 64] block reads (r, d) at (0, r, d). -/
theorem cast_out_apply (w : FVec Ideal S512x64 .f32) (h : S512x64.ShapeCasts S1x512x64) (r : Fin 512) (d : Fin 64) :
    shapeCast S1x512x64 w h (ix3 (0 : Fin 1) r d) = w (ix2 r d) :=
  shapeCast_ab_1ab_apply w h 0 r d

/-! ## The keepdims column and its broadcasts -/

/-- A [512] vector viewed as a [512, 1] column reads r at (r, 0). -/
theorem cast_col_apply (v : FVec Ideal S512 .f32) (h : S512.ShapeCasts S512x1) (r : Fin 512) :
    shapeCast S512x1 v h (ix2 r (0 : Fin 1)) = v (ix1 r) :=
  shapeCast_apply v h _ _ (by
    rw [Shape.rowMajor_val_one, Shape.rowMajor_val_two]
    show r.val = r.val * 1 + 0
    omega)

/-- A [512, 1] column broadcast along 2048 lanes reads its row's one entry. -/
theorem bcast_col_2048_apply (c : FVec Ideal S512x1 .f32) (h : S512x1.Broadcasts S512x2048) (r : Fin 512) (j : Fin 2048) :
    broadcastTo S512x2048 c h (ix2 r j) = c (ix2 r (0 : Fin 1)) :=
  broadcastTo_apply c h (ix2 r j) (ix2 r (0 : Fin 1)) fun a => match a with
    | ⟨0, _⟩ => by show r.val = if (512 : Nat) = 1 then 0 else r.val; rw [if_neg (by decide)]
    | ⟨1, _⟩ => by show 0 = if (1 : Nat) = 1 then 0 else j.val; rw [if_pos rfl]

/-- A [512, 1] column broadcast along 64 lanes reads its row's one entry. -/
theorem bcast_col_64_apply (c : FVec Ideal S512x1 .f32) (h : S512x1.Broadcasts S512x64) (r : Fin 512) (d : Fin 64) :
    broadcastTo S512x64 c h (ix2 r d) = c (ix2 r (0 : Fin 1)) :=
  broadcastTo_apply c h (ix2 r d) (ix2 r (0 : Fin 1)) fun a => match a with
    | ⟨0, _⟩ => by show r.val = if (512 : Nat) = 1 then 0 else r.val; rw [if_neg (by decide)]
    | ⟨1, _⟩ => by show 0 = if (1 : Nat) = 1 then 0 else d.val; rw [if_pos rfl]

/-! ## The two slices of the second product -/

/-- Column 64 of a [512, 65] array, as a [512, 1] column. -/
theorem slice_ones_apply (w : FVec Ideal S512x65 .f32) (h : S512x65.Slices ![0, 64] S512x1) (r : Fin 512) :
    extractStridedSlice S512x1 ![0, 64] w h (ix2 r (0 : Fin 1)) = w (ix2 r (⟨64, by decide⟩ : Fin 65)) :=
  extractStridedSlice_apply _ w h _ _ fun a => match a with
    | ⟨0, _⟩ => by show r.val = 0 + r.val; omega
    | ⟨1, _⟩ => by show 64 = 64 + 0; rfl

/-- Columns 0 to 63 of a [512, 65] array, as a [512, 64] array. -/
theorem slice_vals_apply (w : FVec Ideal S512x65 .f32) (h : S512x65.Slices ![0, 0] S512x64) (r : Fin 512) (d : Fin 64) :
    extractStridedSlice S512x64 ![0, 0] w h (ix2 r d)
      = w (ix2 r (⟨d.val, by have := d.isLt; omega⟩ : Fin 65)) :=
  extractStridedSlice_apply _ w h _ _ fun a => match a with
    | ⟨0, _⟩ => by show r.val = 0 + r.val; omega
    | ⟨1, _⟩ => by show d.val = 0 + d.val; omega

/-! ## The two products

Each product is read at an index as the sum over the contracted axis of the operands' products; the four axis lemmas
per product say which coordinate of the output index or of the contraction index each operand axis reads. -/

theorem lhs_scores_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_scores_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_scores_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_scores_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The first product into the zero accumulator, at (r, j): the sum over the 64 features of left (r, e) times right (j, e). -/
theorem scores_apply (a : FVec Ideal S512x64 .bf16) (b : FVec Ideal S2048x64 .bf16) (r : Fin 512) (j : Fin 2048) :
    matmul dot_S512x64_S2048x64_S512x2048_1_1_0_0_n_n none a b (constant (F := Ideal) S512x2048 .f32 0x00000000#32) (ix2 r j)
      = ∑ e : Fin 64, a (ix2 r e) * b (ix2 j e) := by
  refine (Ideal.matmul_constant_zero_apply dot_S512x64_S2048x64_S512x2048_1_1_0_0_n_n none a b (ix2 r j)).trans ?_
  rw [← Equiv.sum_comp (ValueIdx.contrEquiv1 dot_S512x64_S2048x64_S512x2048_1_1_0_0_n_n 64 rfl rfl).symm]
  refine Finset.sum_congr rfl fun k _ => ?_
  have hk := ValueIdx.contrEquiv1_symm_val dot_S512x64_S2048x64_S512x2048_1_1_0_0_n_n 64 rfl rfl k
  have el : dot_S512x64_S2048x64_S512x2048_1_1_0_0_n_n.lhsIdx (ix2 r j) ((ValueIdx.contrEquiv1 dot_S512x64_S2048x64_S512x2048_1_1_0_0_n_n 64 rfl rfl).symm k) = ix2 r k := funext fun c => Fin.ext (by
    match c with
    | ⟨0, _⟩ => exact lhs_scores_0 _ _
    | ⟨1, _⟩ => exact (lhs_scores_1 _ _).trans hk)
  have er : dot_S512x64_S2048x64_S512x2048_1_1_0_0_n_n.rhsIdx (ix2 r j) ((ValueIdx.contrEquiv1 dot_S512x64_S2048x64_S512x2048_1_1_0_0_n_n 64 rfl rfl).symm k) = ix2 j k := funext fun c => Fin.ext (by
    match c with
    | ⟨0, _⟩ => exact rhs_scores_0 _ _
    | ⟨1, _⟩ => exact (rhs_scores_1 _ _).trans hk)
  rw [el, er]

theorem lhs_mix_0 (i : S512x65.Idx) (q : dot_S512x2048_S2048x65_S512x65_1_0_0_1_n_n.contr.Idx) :
    (dot_S512x2048_S2048x65_S512x65_1_0_0_1_n_n.lhsIdx i q 0).val = (i 0).val := by
  unfold DotDims.lhsIdx
  rw [dif_neg (show ¬(0 : Fin S512x2048.rank) ∈ dot_S512x2048_S2048x65_S512x65_1_0_0_1_n_n.lhsBatch by decide), dif_pos (show (0 : Fin S512x2048.rank) ∈ dot_S512x2048_S2048x65_S512x65_1_0_0_1_n_n.lhsNonContracting by decide)]
  rfl
theorem lhs_mix_1 (i : S512x65.Idx) (q : dot_S512x2048_S2048x65_S512x65_1_0_0_1_n_n.contr.Idx) :
    (dot_S512x2048_S2048x65_S512x65_1_0_0_1_n_n.lhsIdx i q 1).val = (q ⟨0, by decide⟩).val :=
  dot_S512x2048_S2048x65_S512x65_1_0_0_1_n_n.lhsIdx_val_of_single rfl i q
theorem rhs_mix_0 (i : S512x65.Idx) (q : dot_S512x2048_S2048x65_S512x65_1_0_0_1_n_n.contr.Idx) :
    (dot_S512x2048_S2048x65_S512x65_1_0_0_1_n_n.rhsIdx i q 0).val = (q ⟨0, by decide⟩).val :=
  dot_S512x2048_S2048x65_S512x65_1_0_0_1_n_n.rhsIdx_val_of_single rfl i q
theorem rhs_mix_1 (i : S512x65.Idx) (q : dot_S512x2048_S2048x65_S512x65_1_0_0_1_n_n.contr.Idx) :
    (dot_S512x2048_S2048x65_S512x65_1_0_0_1_n_n.rhsIdx i q 1).val = (i 1).val := by
  unfold DotDims.rhsIdx
  rw [dif_neg (show ¬(1 : Fin S2048x65.rank) ∈ dot_S512x2048_S2048x65_S512x65_1_0_0_1_n_n.rhsBatch by decide), dif_pos (show (1 : Fin S2048x65.rank) ∈ dot_S512x2048_S2048x65_S512x65_1_0_0_1_n_n.rhsNonContracting by decide)]
  rfl

/-- The second product into the zero accumulator, at (r, c): the sum over the 2048 keys of left (r, j) times right (j, c). -/
theorem mix_apply (a : FVec Ideal S512x2048 .bf16) (b : FVec Ideal S2048x65 .bf16) (r : Fin 512) (c : Fin 65) :
    matmul dot_S512x2048_S2048x65_S512x65_1_0_0_1_n_n none a b (constant (F := Ideal) S512x65 .f32 0x00000000#32) (ix2 r c)
      = ∑ j : Fin 2048, a (ix2 r j) * b (ix2 j c) := by
  refine (Ideal.matmul_constant_zero_apply dot_S512x2048_S2048x65_S512x65_1_0_0_1_n_n none a b (ix2 r c)).trans ?_
  rw [← Equiv.sum_comp (ValueIdx.contrEquiv1 dot_S512x2048_S2048x65_S512x65_1_0_0_1_n_n 2048 rfl rfl).symm]
  refine Finset.sum_congr rfl fun k _ => ?_
  have hk := ValueIdx.contrEquiv1_symm_val dot_S512x2048_S2048x65_S512x65_1_0_0_1_n_n 2048 rfl rfl k
  have el : dot_S512x2048_S2048x65_S512x65_1_0_0_1_n_n.lhsIdx (ix2 r c) ((ValueIdx.contrEquiv1 dot_S512x2048_S2048x65_S512x65_1_0_0_1_n_n 2048 rfl rfl).symm k) = ix2 r k := funext fun x => Fin.ext (by
    match x with
    | ⟨0, _⟩ => exact lhs_mix_0 _ _
    | ⟨1, _⟩ => exact (lhs_mix_1 _ _).trans hk)
  have er : dot_S512x2048_S2048x65_S512x65_1_0_0_1_n_n.rhsIdx (ix2 r c) ((ValueIdx.contrEquiv1 dot_S512x2048_S2048x65_S512x65_1_0_0_1_n_n 2048 rfl rfl).symm k) = ix2 k c := funext fun x => Fin.ext (by
    match x with
    | ⟨0, _⟩ => exact (rhs_mix_0 _ _).trans hk
    | ⟨1, _⟩ => exact rhs_mix_1 _ _)
  rw [el, er]

/-! ## The row maximum -/

/-- The maximum over axis 1 of a [512, 2048] array, folded from minus infinity, read at row r: the row's maximum. -/
theorem rowmax_apply (src : FVec Ideal S512x2048 .f32) (h : S512x2048.Reduces [1] S512) (hφ : FKind.Formats .f32)
    (hacc : (0xFF800000#32 : BitVec (FTy.bits .f32)) = FKind.maximumf.neutral .f32 hφ) (r : Fin 512) :
    multiReduction (F := Ideal) .maximumf [1] S512 src 0xFF800000#32 h hφ hacc (ix1 r)
      = Cert.Attn.rowMax (fun j => src (ix2 r j)) :=
  have e : (src ∘ h.lift (ix1 r)) = fun j : Fin 2048 => src (ix2 r j) :=
    funext fun j => congrArg src (funext fun a => Fin.ext (by
      match a with
      | ⟨0, _⟩ => rfl
      | ⟨1, _⟩ => rfl))
  (Ideal.multiReduction_maximumf_single src 0xFF800000#32 h hφ hacc (ix1 r)).trans
    (congrArg (fun f : Fin 2048 → EReal =>
      (Finset.univ : Finset (Fin 2048)).fold max (Ideal.ofBits .f32 0xFF800000#32) f) e)

/-! ## The body's value in four stages

The payload is one term of 23 operations; the four definitions below are its stages (each the same operations, in the
same order), and `pay_eq_stages` says the payload is their composition. -/

/-- The score matrix: the scaled query block times the key block, contracting the feature axis. -/
def scores (x0 : Vec Ideal S1x512x64 .f32) (x1 : Vec Ideal S1x2048x64 .f32) : FVec Ideal S512x2048 .f32 :=
  have v1 : FVec Ideal S512x64 .f32 := shapeCast S512x64 x0 shapeCasts_S1x512x64_S512x64
  have cst : Ideal .f32 := Scalar.ofBits .f32 0x3E000000#32
  have v2 : FVec Ideal S512x64 .f32 := broadcast S512x64 cst
  have v3 : FVec Ideal S512x64 .f32 := mulf v1 v2
  have v4 : FVec Ideal S512x64 .bf16 := truncf .bf16 v3 bitsLt_bf16_f32
  have v6 : FVec Ideal S2048x64 .f32 := shapeCast S2048x64 x1 shapeCasts_S1x2048x64_S2048x64
  have v7 : FVec Ideal S2048x64 .bf16 := truncf .bf16 v6 bitsLt_bf16_f32
  have cst_8 : FVec Ideal S512x2048 .f32 := constant (F := Ideal) S512x2048 .f32 0x00000000#32
  matmul dot_S512x64_S2048x64_S512x2048_1_1_0_0_n_n none v4 v7 cst_8

/-- The weights: the exponential of each score less its row's maximum. -/
def weights (x0 : Vec Ideal S1x512x64 .f32) (x1 : Vec Ideal S1x2048x64 .f32) : FVec Ideal S512x2048 .f32 :=
  have v11 : FVec Ideal S512x2048 .f32 := scores x0 x1
  have v12 : FVec Ideal S512 .f32 := multiReduction (F := Ideal) .maximumf [1] S512 v11 0xFF800000#32 reduces_S512x2048_S512 (.inl rfl) rfl
  have v13 : FVec Ideal S512x1 .f32 := shapeCast S512x1 v12 shapeCasts_S512_S512x1
  have v14 : FVec Ideal S512x2048 .f32 := broadcastTo S512x2048 v13 broadcasts_S512x1_S512x2048
  have v15 : FVec Ideal S512x2048 .f32 := subf v11 v14
  exp v15

/-- The second product: the weights times the value block with its appended column. -/
def mixed (x0 : Vec Ideal S1x512x64 .f32) (x1 : Vec Ideal S1x2048x64 .f32) (x2 : Vec Ideal S1x2048x65 .f32) :
    FVec Ideal S512x65 .f32 :=
  have v16 : FVec Ideal S512x2048 .f32 := weights x0 x1
  have v17 : FVec Ideal S512x2048 .bf16 := truncf .bf16 v16 bitsLt_bf16_f32
  have v9 : FVec Ideal S2048x65 .f32 := shapeCast S2048x65 x2 shapeCasts_S1x2048x65_S2048x65
  have v10 : FVec Ideal S2048x65 .bf16 := truncf .bf16 v9 bitsLt_bf16_f32
  have cst_10 : FVec Ideal S512x65 .f32 := constant (F := Ideal) S512x65 .f32 0x00000000#32
  matmul dot_S512x2048_S2048x65_S512x65_1_0_0_1_n_n none v17 v10 cst_10

/-- The quotient of the first 64 columns of the second product by its last column, stored as a [1, 512, 64] block. -/
def quotient (v18 : FVec Ideal S512x65 .f32) : FVec Ideal S1x512x64 .f32 :=
  have v19 : FVec Ideal S512x1 .f32 := extractStridedSlice S512x1 ![0, 64] v18 slices_S512x65_o0_64_S512x1
  have v20 : FVec Ideal S512x64 .f32 := extractStridedSlice S512x64 ![0, 0] v18 slices_S512x65_o0_0_S512x64
  have v21 : FVec Ideal S512x64 .f32 := broadcastTo S512x64 v19 broadcasts_S512x1_S512x64
  have v22 : FVec Ideal S512x64 .f32 := divf v20 v21
  shapeCast S1x512x64 v22 shapeCasts_S512x64_S1x512x64

/-- The payload is the composition of its four stages: the same operations in the same order. -/
theorem pay_eq_stages (x0 : Vec Ideal S1x512x64 .f32) (x1 : Vec Ideal S1x2048x64 .f32) (x2 : Vec Ideal S1x2048x65 .f32) :
    k0_pay1 (F := Ideal) x0 x1 x2 = quotient (mixed x0 x1 x2) := rfl

/-! ## Each stage at an index -/

/-- The score matrix at (r, j) is the kernel's score of query row r against key row j. -/
theorem scores_at (x0 : Vec Ideal S1x512x64 .f32) (x1 : Vec Ideal S1x2048x64 .f32) (r : Fin 512) (j : Fin 2048) :
    scores x0 x1 (ix2 r j)
      = Cert.Attn.kScore (fun e => x0 (ix3 (0 : Fin 1) r e)) (fun j e => x1 (ix3 (0 : Fin 1) j e)) j := by
  unfold scores Cert.Attn.kScore
  refine (scores_apply _ _ r j).trans ?_
  refine Finset.sum_congr rfl fun e _ => ?_
  show (shapeCast S512x64 x0 shapeCasts_S1x512x64_S512x64 (ix2 r e) * Ideal.ofBits .f32 0x3E000000#32)
      * shapeCast S2048x64 x1 shapeCasts_S1x2048x64_S2048x64 (ix2 j e) = _
  rw [cast_q_apply, cast_k_apply]

/-- The weight at (r, j): the exponential of the score less the row's maximum. -/
theorem weights_at (x0 : Vec Ideal S1x512x64 .f32) (x1 : Vec Ideal S1x2048x64 .f32) (r : Fin 512) (j : Fin 2048) :
    weights x0 x1 (ix2 r j)
      = Ideal.exp (Cert.Attn.kScore (fun e => x0 (ix3 (0 : Fin 1) r e)) (fun j e => x1 (ix3 (0 : Fin 1) j e)) j
          - Cert.Attn.rowMax (Cert.Attn.kScore (fun e => x0 (ix3 (0 : Fin 1) r e)) (fun j e => x1 (ix3 (0 : Fin 1) j e)))) := by
  unfold weights
  show Ideal.exp (scores x0 x1 (ix2 r j)
      - broadcastTo S512x2048 (shapeCast S512x1
          (multiReduction (F := Ideal) .maximumf [1] S512 (scores x0 x1) 0xFF800000#32 reduces_S512x2048_S512 (.inl rfl) rfl)
          shapeCasts_S512_S512x1) broadcasts_S512x1_S512x2048 (ix2 r j)) = _
  refine congrArg Ideal.exp (congrArg₂ (· - ·) (scores_at x0 x1 r j) ?_)
  refine (bcast_col_2048_apply _ _ r j).trans ?_
  refine (cast_col_apply _ _ r).trans ?_
  refine (rowmax_apply _ _ _ _ r).trans ?_
  exact congrArg Cert.Attn.rowMax (funext fun j' => scores_at x0 x1 r j')

/-- The second product at (r, c): the weighted sum of column c of the values. -/
theorem mixed_at (x0 : Vec Ideal S1x512x64 .f32) (x1 : Vec Ideal S1x2048x64 .f32) (x2 : Vec Ideal S1x2048x65 .f32)
    (r : Fin 512) (c : Fin 65) :
    mixed x0 x1 x2 (ix2 r c)
      = ∑ j : Fin 2048,
          Ideal.exp (Cert.Attn.kScore (fun e => x0 (ix3 (0 : Fin 1) r e)) (fun j e => x1 (ix3 (0 : Fin 1) j e)) j
            - Cert.Attn.rowMax (Cert.Attn.kScore (fun e => x0 (ix3 (0 : Fin 1) r e)) (fun j e => x1 (ix3 (0 : Fin 1) j e))))
          * x2 (ix3 (0 : Fin 1) j c) := by
  unfold mixed
  refine (mix_apply _ _ r c).trans ?_
  refine Finset.sum_congr rfl fun j _ => ?_
  show weights x0 x1 (ix2 r j) * shapeCast S2048x65 x2 shapeCasts_S1x2048x65_S2048x65 (ix2 j c) = _
  rw [weights_at, cast_v_apply]

/-- The stored block at (0, r, d): the second product's entry (r, d) over its entry (r, 64). -/
theorem quotient_at (v18 : FVec Ideal S512x65 .f32) (r : Fin 512) (d : Fin 64) :
    quotient v18 (ix3 (0 : Fin 1) r d)
      = Ideal.div (v18 (ix2 r (⟨d.val, by have := d.isLt; omega⟩ : Fin 65))) (v18 (ix2 r (⟨64, by decide⟩ : Fin 65))) := by
  unfold quotient
  refine (cast_out_apply _ _ r d).trans ?_
  show Ideal.div (extractStridedSlice S512x64 ![0, 0] v18 slices_S512x65_o0_0_S512x64 (ix2 r d))
      (broadcastTo S512x64 (extractStridedSlice S512x1 ![0, 64] v18 slices_S512x65_o0_64_S512x1) broadcasts_S512x1_S512x64 (ix2 r d)) = _
  refine congrArg₂ Ideal.div (slice_vals_apply _ _ r d) ?_
  refine (bcast_col_64_apply _ _ r d).trans ?_
  exact slice_ones_apply _ _ r

/-! ## The payload at an index -/

/-- The body's stored value at (0, r, d) is the kernel's output element for query row r of the block, the head's keys, and
    column d of the values: the appended column of ones (`hone`) turns the second product's last column into the sum of the
    weights. -/
theorem pay_apply (x0 : Vec Ideal S1x512x64 .f32) (x1 : Vec Ideal S1x2048x64 .f32) (x2 : Vec Ideal S1x2048x65 .f32)
    (hone : ∀ j : Fin 2048, x2 (ix3 (0 : Fin 1) j (⟨64, by decide⟩ : Fin 65)) = Ideal.ofBits .f32 0x3F800000#32)
    (r : Fin 512) (d : Fin 64) :
    k0_pay1 (F := Ideal) x0 x1 x2 (ix3 (0 : Fin 1) r d)
      = Cert.Attn.kernelElem (fun e => x0 (ix3 (0 : Fin 1) r e)) (fun j e => x1 (ix3 (0 : Fin 1) j e))
          (fun j => x2 (ix3 (0 : Fin 1) j (⟨d.val, by have := d.isLt; omega⟩ : Fin 65))) := by
  rw [pay_eq_stages]
  refine (quotient_at _ r d).trans ?_
  unfold Cert.Attn.kernelElem
  refine congrArg₂ Ideal.div (mixed_at x0 x1 x2 r _) ?_
  refine (mixed_at x0 x1 x2 r _).trans ?_
  exact Finset.sum_congr rfl fun j _ => congrArg (_ * ·) (hone j)

end Cert.KernelIdeal.KValue

end
-- ==== Proof.Blocks.lean ====
/-
  The region's output array after the run, as ONE function of the three arrays the region reads.

  The grid has 64 × 4 points: point `t` works on one head `g` (the batch and head axes regrouped into one axis of 64)
  and on 512 consecutive query rows of it.  Its query block is rows `512 q … 512 q + 511` of head `g`, its key and value
  blocks are the whole head, and it writes back the matching 512 rows of the output.  So what every point writes back is
  its block of one array function, `headOut`: element `(g, s, d)` is the attention of query row `s` of head `g` over
  all 2048 key rows of that head, the value column `d` weighted by the softmax weights (the quotient of two weighted sums,
  the second over the appended column of ones).  The blocks tile the output array, so the array ends equal to `headOut`.
-/
import proofs.«427072_j21741124452466_3_alg».proof.Proof.Gen.KernelIdeal.Frame
import proofs.«427072_j21741124452466_3_alg».proof.Proof.Spec
import proofs.«427072_j21741124452466_3_alg».proof.Proof.Payload
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- One element of a head's output: row `s` of head `g` attends to all 2048 key rows of that head. -/
def headOutAt (q2 k2 : S64x2048x64.Idx → Elt Ideal .f32) (ve : S64x2048x65.Idx → Elt Ideal .f32)
    (g : Fin 64) (s : Fin 2048) (d : Fin 64) : EReal :=
  Cert.Attn.kernelElem (fun e => q2 (ix3 g s e)) (fun j e => k2 (ix3 g j e))
    (fun j => ve (ix3 g j (⟨d.val, by have := d.isLt; omega⟩ : Fin 65)))

/-- The region's output array as one function of its three input arrays. -/
def headOut (q2 k2 : S64x2048x64.Idx → Elt Ideal .f32) (ve : S64x2048x65.Idx → Elt Ideal .f32) :
    S64x2048x64.Idx → Elt Ideal .f32 := fun i => headOutAt q2 k2 ve (i 0) (i 1) (i 2)

theorem idx_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 63 ∧ win0_3.index t (1 : Fin 3) ≤ 3 ∧ win0_3.index t (2 : Fin 3) = 0 :=
  (by decide +kernel : ∀ t : Fin grid0.N, _)

theorem idx_onto : ∀ (g : Fin 64) (qi : Fin 4), ∃ t : Fin cfg0.N, win0_3.index t = ![g.val, qi.val, 0] :=
  (by decide +kernel : ∀ (g : Fin 64) (qi : Fin 4), ∃ t : Fin grid0.N, win0_3.index t = ![g.val, qi.val, 0])

/-- The head (batch × head index) whose rows grid point `t` works on, -/
def headOf (t : Fin cfg0.N) : Fin 64 := ⟨win0_3.index t (0 : Fin 3), by have := (idx_facts t).2.2.2.2.2.2.2.2.2.1; omega⟩
/-- and the row of that head that row `r` of the point's query block is: 512 rows per point. -/
def rowOf (t : Fin cfg0.N) (r : Fin 512) : Fin 2048 :=
  ⟨win0_3.index t (1 : Fin 3) * 512 + r.val, by have := (idx_facts t).2.2.2.2.2.2.2.2.2.2.1; have := r.isLt; omega⟩

/-- Row `r` of the query block at point `t` is row `rowOf t r` of head `headOf t` of the query array. -/
theorem blk_q (c : Dev nD) (t : Fin cfg0.N) (r : Fin 512) (e : Fin 64) :
    iblk m c 0 t (ix3 (0 : Fin 1) r e) = V m c main_v0 (ix3 (headOf t) (rowOf t r) e) := by
  obtain ⟨e0, e1, e2, -⟩ := idx_facts t
  show V m c main_v0 (((cfg0.win 0).blk t).view.emb (ix3 (0 : Fin 1) r e)) = _
  refine congrArg _ (funext fun a => Fin.ext ?_)
  match a with
  | ⟨0, _⟩ => show win0_0.index t (0 : Fin 3) * 1 + 1 * 0 = win0_3.index t (0 : Fin 3); omega
  | ⟨1, _⟩ => show win0_0.index t (1 : Fin 3) * 512 + 1 * r.val = win0_3.index t (1 : Fin 3) * 512 + r.val; omega
  | ⟨2, _⟩ => show win0_0.index t (2 : Fin 3) * 64 + 1 * e.val = e.val; omega

/-- The key block at point `t` is the whole head `headOf t` of the key array. -/
theorem blk_k (c : Dev nD) (t : Fin cfg0.N) (j : Fin 2048) (e : Fin 64) :
    iblk m c 1 t (ix3 (0 : Fin 1) j e) = V m c main_v1 (ix3 (headOf t) j e) := by
  obtain ⟨-, -, -, e0, e1, e2, -⟩ := idx_facts t
  show V m c main_v1 (((cfg0.win 1).blk t).view.emb (ix3 (0 : Fin 1) j e)) = _
  refine congrArg _ (funext fun a => Fin.ext ?_)
  match a with
  | ⟨0, _⟩ => show win0_1.index t (0 : Fin 3) * 1 + 1 * 0 = win0_3.index t (0 : Fin 3); omega
  | ⟨1, _⟩ => show win0_1.index t (1 : Fin 3) * 2048 + 1 * j.val = j.val; omega
  | ⟨2, _⟩ => show win0_1.index t (2 : Fin 3) * 64 + 1 * e.val = e.val; omega

/-- The value block at point `t` is the whole head `headOf t` of the widened value array. -/
theorem blk_v (c : Dev nD) (t : Fin cfg0.N) (j : Fin 2048) (d : Fin 65) :
    iblk m c 2 t (ix3 (0 : Fin 1) j d) = V m c main_v4 (ix3 (headOf t) j d) := by
  obtain ⟨-, -, -, -, -, -, e0, e1, e2, -⟩ := idx_facts t
  show V m c main_v4 (((cfg0.win 2).blk t).view.emb (ix3 (0 : Fin 1) j d)) = _
  refine congrArg _ (funext fun a => Fin.ext ?_)
  match a with
  | ⟨0, _⟩ => show win0_2.index t (0 : Fin 3) * 1 + 1 * 0 = win0_3.index t (0 : Fin 3); omega
  | ⟨1, _⟩ => show win0_2.index t (1 : Fin 3) * 2048 + 1 * j.val = j.val; omega
  | ⟨2, _⟩ => show win0_2.index t (2 : Fin 3) * 65 + 1 * d.val = d.val; omega

/-- Where element `(0, r, d)` of the output block at point `t` sits in the output array. -/
theorem emb_out (t : Fin cfg0.N) (r : Fin 512) (d : Fin 64) :
    ((cfg0.win 3).blk t).view.emb (ix3 (0 : Fin 1) r d) = ix3 (headOf t) (rowOf t r) d := by
  obtain ⟨-, -, -, -, -, -, -, -, -, -, -, e2⟩ := idx_facts t
  refine funext fun a => Fin.ext ?_
  match a with
  | ⟨0, _⟩ => show win0_3.index t (0 : Fin 3) * 1 + 1 * 0 = win0_3.index t (0 : Fin 3); omega
  | ⟨1, _⟩ => show win0_3.index t (1 : Fin 3) * 512 + 1 * r.val = win0_3.index t (1 : Fin 3) * 512 + r.val; omega
  | ⟨2, _⟩ => show win0_3.index t (2 : Fin 3) * 64 + 1 * d.val = d.val; omega

/-- What the body stores at an element of its output block is the head's output at the element's place in the array. -/
theorem pay_block (c : Dev nD) (t : Fin cfg0.N)
    (hone : ∀ (g : Fin 64) (j : Fin 2048), V m c main_v4 (ix3 g j (⟨64, by decide⟩ : Fin 65)) = Ideal.ofBits .f32 0x3F800000#32)
    (y : S1x512x64.Idx) :
    k0_pay1 (F := Ideal) (iblk m c 0 t) (iblk m c 1 t) (iblk m c 2 t) y
      = headOut (V m c main_v0) (V m c main_v1) (V m c main_v4) (((cfg0.win 3).blk t).view.emb y) := by
  obtain ⟨r, d, rfl⟩ : ∃ (r : Fin 512) (d : Fin 64), y = ix3 (0 : Fin 1) r d :=
    ⟨y 1, y 2, (eq_ix3 y).trans (congrArg (fun a : Fin 1 => ix3 a (y 1) (y 2)) (Subsingleton.elim _ _))⟩
  refine (pay_apply (iblk m c 0 t) (iblk m c 1 t) (iblk m c 2 t)
    (fun j => (blk_v m c t j _).trans (hone (headOf t) j)) r d).trans ?_
  rw [emb_out t r d]
  show _ = headOutAt (V m c main_v0) (V m c main_v1) (V m c main_v4) (headOf t) (rowOf t r) d
  unfold headOutAt
  have eq : (fun e => iblk m c 0 t (ix3 (0 : Fin 1) r e)) = fun e => V m c main_v0 (ix3 (headOf t) (rowOf t r) e) :=
    funext fun e => blk_q m c t r e
  have ek : (fun j e => iblk m c 1 t (ix3 (0 : Fin 1) j e)) = fun j e => V m c main_v1 (ix3 (headOf t) j e) :=
    funext fun j => funext fun e => blk_k m c t j e
  have ev : (fun j => iblk m c 2 t (ix3 (0 : Fin 1) j (⟨d.val, by have := d.isLt; omega⟩ : Fin 65)))
      = fun j => V m c main_v4 (ix3 (headOf t) j (⟨d.val, by have := d.isLt; omega⟩ : Fin 65)) :=
    funext fun j => blk_v m c t j _
  rw [eq, ek, ev]

/-- WHAT POINT `t` WRITES BACK is block `t` of the heads' output. -/
theorem flushed_eq (c : Dev nD) (t : Fin cfg0.N)
    (hone : ∀ (g : Fin 64) (j : Fin 2048), V m c main_v4 (ix3 g j (⟨64, by decide⟩ : Fin 65)) = Ideal.ofBits .f32 0x3F800000#32) :
    (dats m 0 c).flushed 3 t = ((cfg0.win 3).blk t).view.read (Elt Ideal) (headOut (V m c main_v0) (V m c main_v1) (V m c main_v4)) := by
  show (cfg0.win 3).cut (grid0.coords t) ((dats m 0 c).after 3 t) = _
  rw [after0_3]
  unfold out0_3
  rw [View.canon_unit_zero hz3]
  simp only [View.ld_unit_zero (S := S1x512x64) hz3, View.ld_unit_zero (S := S1x2048x64) hz3, View.ld_unit_zero (S := S1x2048x65) hz3]
  funext y
  exact pay_block m c t hone y

/-- An index of the output array is in point `t`'s block iff each coordinate is in the block's range on its axis. -/
theorem mem_blk3 (t : Fin cfg0.N) (i : S64x2048x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v5).slice (win0_3.rect t)).set ↔ _
  rw [View.set_slice_whole, Rect.mem_set_unit]
  exact Iff.rfl

/-- Every index of the output array is in some point's block: head `i 0`, row block `i 1 / 512`. -/
theorem cover3 (i : S64x2048x64.Idx) : ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- THE OUTPUT ARRAY after the region: the heads' output of the three input arrays as the region finds them. -/
theorem final3 (c : Dev nD)
    (hone : ∀ (g : Fin 64) (j : Fin 2048), V m c main_v4 (ix3 g j (⟨64, by decide⟩ : Fin 65)) = Ideal.ofBits .f32 0x3F800000#32) :
    (dats m 0 c).arrAt 3 cfg0.N = headOut (V m c main_v0) (V m c main_v1) (V m c main_v4) :=
  (dats m 0 c).arrAt_eq_of_cover 3 _ (fun t _ => flushed_eq m c t hone) cover3

end Cert.KernelIdeal.KValue

end
-- ==== Proof.KernelRun.lean ====
/-
  The kernel program's run, read: what @main's result buffer holds at the end.

  Before the region three host lines regroup each argument [4, 16, 2048, 64] into heads [64, 2048, 64] (head `16 b + h`),
  and two more append a column of ones to the regrouped values, [64, 2048, 65].  The region leaves the heads' output
  (`headOut` of those three arrays), and one host line after it regroups that array back into [4, 16, 2048, 64].
  A regrouping keeps the row-major position, so element `(b, h, s, d)` of the result is the attention of query row
  `(b, h, s)` over the key rows `(b, h, ·)`, with value column `(b, h, ·, d)`: `Cert.Attn.attnK` of the three arguments.
-/
import proofs.«427072_j21741124452466_3_alg».proof.Proof.Blocks
import Idealize.ShloMosaic.Lib.StableHlo.Run

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The region finds the query array as the first argument regrouped by head. -/
theorem V_q (c : Dev nD) : (V m c main_v0 : S64x2048x64.Idx → Elt Ideal .f32)
    = shapeCast S64x2048x64 (m ((c : Thread nD τ).loc main_arg0)) shapeCasts_S4x16x2048x64_S64x2048x64 := by
  show StableHlo.after hostOps0 (fun b => m (c, b)) (Proc.devRef .tc main_v0) = _
  after_results
  rfl

theorem V_k (c : Dev nD) : (V m c main_v1 : S64x2048x64.Idx → Elt Ideal .f32)
    = shapeCast S64x2048x64 (m ((c : Thread nD τ).loc main_arg1)) shapeCasts_S4x16x2048x64_S64x2048x64 := by
  show StableHlo.after hostOps0 (fun b => m (c, b)) (Proc.devRef .tc main_v1) = _
  after_results
  rfl

theorem V_ve (c : Dev nD) : (V m c main_v4 : S64x2048x65.Idx → Elt Ideal .f32)
    = concatenate S64x2048x65 2 [⟨S64x2048x64, shapeCast S64x2048x64 (m ((c : Thread nD τ).loc main_arg2)) shapeCasts_S4x16x2048x64_S64x2048x64⟩,
        ⟨S64x2048x1, broadcastInDim S64x2048x1 ![] bcast_S_S64x2048x1 (constant (F := Ideal) S_ .f32 0x3F800000#32)⟩] concatenates_S64x2048x64_S64x2048x1_S64x2048x65_d2 := by
  show StableHlo.after hostOps0 (fun b => m (c, b)) (Proc.devRef .tc main_v4) = _
  after_results
  rfl

/-- After the region, the one host line regroups the heads' output array into the result. -/
theorem tail_v6 (c : Dev nD) : Pipeline.afterTail₀ cfgs (dats m) 0 (V0 m) [hostOps1] c main_v6
    = shapeCast S4x16x2048x64 ((dats m 0 c).arrAt 3 cfg0.N) shapeCasts_S64x2048x64_S4x16x2048x64 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = (dats m 0 c).arrAt 3 cfg0.N := Pipeline.withArrays_arr spec0 launch0.win.arr_inj c _ _ 3
  rw [e]
  rfl

/-! ## The regroupings read at an index: head `g = 16 b + h` -/

/-- An argument array regrouped by head reads `(b, h, s, e)` at `(16 b + h, s, e)`: the two have one row-major position. -/
theorem regroup_in (x : S4x16x2048x64.Idx → Elt Ideal .f32) (b : Fin 4) (h : Fin 16) (s : Fin 2048) (e : Fin 64) :
    shapeCast S64x2048x64 x shapeCasts_S4x16x2048x64_S64x2048x64
        (ix3 (⟨b.val * 16 + h.val, by have := b.isLt; have := h.isLt; omega⟩ : Fin 64) s e) = x (ix4 b h s e) := by
  refine shapeCast_apply x _ _ _ ?_
  rw [Shape.rowMajor_val_four, Shape.rowMajor_val_three]
  rfl

/-- The heads' output regrouped into the result reads `(16 b + h, s, d)` at `(b, h, s, d)`. -/
theorem regroup_out (y : S64x2048x64.Idx → Elt Ideal .f32) (b : Fin 4) (h : Fin 16) (s : Fin 2048) (d : Fin 64) :
    shapeCast S4x16x2048x64 y shapeCasts_S64x2048x64_S4x16x2048x64 (ix4 b h s d)
      = y (ix3 (⟨b.val * 16 + h.val, by have := b.isLt; have := h.isLt; omega⟩ : Fin 64) s d) := by
  refine shapeCast_apply y _ _ _ ?_
  rw [Shape.rowMajor_val_four, Shape.rowMajor_val_three]
  rfl

/-! ## The widened value array: the values, then a column of ones -/

/-- Below column 64 the widened array is the regrouped values. -/
theorem widened_left (x : S64x2048x64.Idx → Elt Ideal .f32) (o : S64x2048x1.Idx → Elt Ideal .f32) (g : Fin 64) (j : Fin 2048) (d : Fin 64) :
    concatenate S64x2048x65 2 [⟨S64x2048x64, x⟩, ⟨S64x2048x1, o⟩] concatenates_S64x2048x64_S64x2048x1_S64x2048x65_d2
        (ix3 g j (⟨d.val, by have := d.isLt; omega⟩ : Fin 65)) = x (ix3 g j d) :=
  concatenate_pair_apply_left (t := S64x2048x65) (2 : Fin 3) x o concatenates_S64x2048x64_S64x2048x1_S64x2048x65_d2
    (ix3 g j (⟨d.val, by have := d.isLt; omega⟩ : Fin 65)) rfl (ix3 g j d)
    (fun b => by match b with | ⟨0, _⟩ => rfl | ⟨1, _⟩ => rfl | ⟨2, _⟩ => rfl)

/-- At column 64 it is the appended column. -/
theorem widened_right (x : S64x2048x64.Idx → Elt Ideal .f32) (o : S64x2048x1.Idx → Elt Ideal .f32) (g : Fin 64) (j : Fin 2048) :
    concatenate S64x2048x65 2 [⟨S64x2048x64, x⟩, ⟨S64x2048x1, o⟩] concatenates_S64x2048x64_S64x2048x1_S64x2048x65_d2
        (ix3 g j (⟨64, by decide⟩ : Fin 65)) = o (ix3 g j (0 : Fin 1)) :=
  concatenate_pair_apply_right (t := S64x2048x65) (2 : Fin 3) x o concatenates_S64x2048x64_S64x2048x1_S64x2048x65_d2
    (ix3 g j (⟨64, by decide⟩ : Fin 65)) rfl rfl (ix3 g j (0 : Fin 1))
    (fun b hb => by match b with | ⟨0, _⟩ => rfl | ⟨1, _⟩ => rfl | ⟨2, _⟩ => exact absurd rfl hb)
    (by rfl)

/-- The appended column holds the f32 word of 1 everywhere. -/
theorem ones_column (c : Dev nD) (g : Fin 64) (j : Fin 2048) :
    V m c main_v4 (ix3 g j (⟨64, by decide⟩ : Fin 65)) = Ideal.ofBits .f32 0x3F800000#32 := by
  refine (congrFun (V_ve m c) _).trans ?_
  refine (widened_right _ _ g j).trans ?_
  rfl

/-- Below column 64 the widened array is the third argument. -/
theorem values_column (c : Dev nD) (b : Fin 4) (h : Fin 16) (j : Fin 2048) (d : Fin 64) :
    V m c main_v4 (ix3 (⟨b.val * 16 + h.val, by have := b.isLt; have := h.isLt; omega⟩ : Fin 64) j (⟨d.val, by have := d.isLt; omega⟩ : Fin 65))
      = m ((c : Thread nD τ).loc main_arg2) (ix4 b h j d) := by
  refine (congrFun (V_ve m c) _).trans ?_
  refine (widened_left _ _ _ j d).trans ?_
  exact regroup_in _ b h j d

/-! ## The result -/

/-- The regrouped heads' output is the attention of the three arguments, index by index. -/
theorem result_at (c : Dev nD) (i : S4x16x2048x64.Idx) :
    shapeCast S4x16x2048x64 (headOut (V m c main_v0) (V m c main_v1) (V m c main_v4)) shapeCasts_S64x2048x64_S4x16x2048x64 i
      = Cert.Attn.attnK (m ((c : Thread nD τ).loc main_arg0)) (m ((c : Thread nD τ).loc main_arg1)) (m ((c : Thread nD τ).loc main_arg2)) i := by
  obtain ⟨b, h, s, d, rfl⟩ : ∃ (b : Fin 4) (h : Fin 16) (s : Fin 2048) (d : Fin 64), i = ix4 b h s d := ⟨i 0, i 1, i 2, i 3, eq_ix4 i⟩
  rw [Cert.Attn.attnK_apply]
  refine (regroup_out _ b h s d).trans ?_
  show headOutAt (V m c main_v0) (V m c main_v1) (V m c main_v4) (⟨b.val * 16 + h.val, by have := b.isLt; have := h.isLt; omega⟩ : Fin 64) s d = _
  unfold headOutAt
  have eq : (fun e => V m c main_v0 (ix3 (⟨b.val * 16 + h.val, by have := b.isLt; have := h.isLt; omega⟩ : Fin 64) s e))
      = fun e => m ((c : Thread nD τ).loc main_arg0) (ix4 b h s e) :=
    funext fun e => (congrFun (V_q m c) _).trans (regroup_in _ b h s e)
  have ek : (fun j e => V m c main_v1 (ix3 (⟨b.val * 16 + h.val, by have := b.isLt; have := h.isLt; omega⟩ : Fin 64) j e))
      = fun j e => m ((c : Thread nD τ).loc main_arg1) (ix4 b h j e) :=
    funext fun j => funext fun e => (congrFun (V_k m c) _).trans (regroup_in _ b h j e)
  have ev : (fun j => V m c main_v4 (ix3 (⟨b.val * 16 + h.val, by have := b.isLt; have := h.isLt; omega⟩ : Fin 64) j (⟨d.val, by have := d.isLt; omega⟩ : Fin 65)))
      = fun j => m ((c : Thread nD τ).loc main_arg2) (ix4 b h j d) :=
    funext fun j => values_column m c b h j d
  rw [eq, ek, ev]

/-- What @main's result buffer holds after the lines that follow the region. -/
theorem result_eq (c : Dev nD) :
    Pipeline.afterTail₀ cfgs (dats m) 0 (V0 m) [hostOps1] c main_v6
      = Cert.Attn.attnK (m ((c : Thread nD τ).loc main_arg0)) (m ((c : Thread nD τ).loc main_arg1)) (m ((c : Thread nD τ).loc main_arg2)) := by
  rw [tail_v6, final3 m c (ones_column m c)]
  exact funext (result_at m c)

/-- THE KERNEL'S RUN: every weakly fair execution terminates with the result buffer at the attention of the three
    arguments and the arguments unchanged. -/
theorem run : θ_run defs (onTc (τ := τ) (main (F := Ideal))) ⟨m, fun _ => 0, ρ⟩ fun r => ∀ c : Dev nD,
      r.2.mem ((c.tc : Thread nD τ).loc main_v6)
        = Cert.Attn.attnK (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KValue

end
-- ==== Proof.RefRead.lean ====
/-
  The reference program's result, read at one index (b, h, r, d) of the [4, 16, 2048, 64] array.

  The reference computes, for the query row r of head (b, h):
    * the score against key row j: the dot product over the 64 features, times the scalar 1 / sqrt 64;
    * the row's maximum of the scores over the 2048 key rows, folded from minus infinity, and joined once more with
      minus infinity;
    * the weight exp (score - maximum), the row's sum of weights added to zero, the quotient of the two;
    * the sum over the 2048 key rows of the normalised weight times the value column d.
  Each stage is read at literal coordinates, and the composed index functions of the broadcasts, of the two dot
  products and of the two reductions are identified with indices built from the coordinates themselves.
-/
import proofs.«427072_j21741124452466_3_alg».proof.Proof.Gen.ReferenceIdeal.Read
import proofs.«427072_j21741124452466_3_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

/-- The three argument arrays' type. -/
abbrev Arr : Type := (⟨S4x16x2048x64, .f32⟩ : BufTy).Contents (Elt Ideal)

/-! ## The index functions at literal coordinates -/

/-- The first dot product reads the query at (b, h, r, e). -/
theorem lidx_v2 (b : Fin 4) (h : Fin 16) (r j : Fin 2048) (e : Fin 64) :
    lidx_main_v2 (ix4 b h r j) e = ix4 b h r e :=
  funext fun a => Fin.ext (by match a with | ⟨0, _⟩ => rfl | ⟨1, _⟩ => rfl | ⟨2, _⟩ => rfl | ⟨3, _⟩ => rfl)

/-- The first dot product reads the key at (b, h, j, e). -/
theorem ridx_v2 (b : Fin 4) (h : Fin 16) (r j : Fin 2048) (e : Fin 64) :
    ridx_main_v2 (ix4 b h r j) e = ix4 b h j e :=
  funext fun a => Fin.ext (by match a with | ⟨0, _⟩ => rfl | ⟨1, _⟩ => rfl | ⟨2, _⟩ => rfl | ⟨3, _⟩ => rfl)

/-- The two broadcasts of a per-row quantity read it at (b, h, r). -/
theorem idx_v8_v9 (b : Fin 4) (h : Fin 16) (r j : Fin 2048) :
    idx_main_v8 (idx_main_v9 (ix4 b h r j)) = ix3 b h r :=
  funext fun a => Fin.ext (by match a with | ⟨0, _⟩ => rfl | ⟨1, _⟩ => rfl | ⟨2, _⟩ => rfl)

theorem idx_v13_v14 (b : Fin 4) (h : Fin 16) (r j : Fin 2048) :
    idx_main_v13 (idx_main_v14 (ix4 b h r j)) = ix3 b h r :=
  funext fun a => Fin.ext (by match a with | ⟨0, _⟩ => rfl | ⟨1, _⟩ => rfl | ⟨2, _⟩ => rfl)

/-- The row sum reads the weights at (b, h, r, j'). -/
theorem idx_v12 (b : Fin 4) (h : Fin 16) (r j : Fin 2048) :
    idx_main_v12 (ix3 b h r) j = ix4 b h r j :=
  funext fun a => Fin.ext (by match a with | ⟨0, _⟩ => rfl | ⟨1, _⟩ => rfl | ⟨2, _⟩ => rfl | ⟨3, _⟩ => rfl)

/-- The second dot product reads the normalised weight at (b, h, r, j). -/
theorem lidx_v16 (b : Fin 4) (h : Fin 16) (r : Fin 2048) (d : Fin 64) (j : Fin 2048) :
    lidx_main_v16 (ix4 b h r d) j = ix4 b h r j :=
  funext fun a => Fin.ext (by match a with | ⟨0, _⟩ => rfl | ⟨1, _⟩ => rfl | ⟨2, _⟩ => rfl | ⟨3, _⟩ => rfl)

/-- The second dot product reads the values at (b, h, j, d). -/
theorem ridx_v16 (b : Fin 4) (h : Fin 16) (r : Fin 2048) (d : Fin 64) (j : Fin 2048) :
    ridx_main_v16 (ix4 b h r d) j = ix4 b h j d :=
  funext fun a => Fin.ext (by match a with | ⟨0, _⟩ => rfl | ⟨1, _⟩ => rfl | ⟨2, _⟩ => rfl | ⟨3, _⟩ => rfl)

/-- The reduced index (b, h, r) with coordinate j put back on the last axis is (b, h, r, j). -/
theorem lift_ix3 (hr : S4x16x2048x2048.Reduces [3] S4x16x2048) (b : Fin 4) (h : Fin 16) (r : Fin 2048) (j : Fin 2048) :
    hr.lift (ix3 b h r) j = ix4 b h r j :=
  funext fun a => Fin.ext (by match a with | ⟨0, _⟩ => rfl | ⟨1, _⟩ => rfl | ⟨2, _⟩ => rfl | ⟨3, _⟩ => rfl)

/-! ## The stages -/

/-- The scalar 1 / sqrt 64, as the host computes it. -/
theorem scale_eq (i : S_.Idx) :
    val_main_v1 (F := Ideal) i
      = Ideal.div (Ideal.ofBits .f32 0x3F800000#32) (Ideal.sqrt (Ideal.ofBits .f32 0x42800000#32)) := by
  rw [val_main_v1_apply, val_main_v0_apply, val_main_cst_0_apply, val_main_cst_apply]
  simp only [Ideal.hostDivf_def, Ideal.hostUnary_sqrt_def, Ideal.ofBits_def]

/-- The scaled score of query row r against key row j. -/
theorem score_eq (q k : Arr) (b : Fin 4) (h : Fin 16) (r j : Fin 2048) :
    val_main_v4 (F := Ideal) q k (ix4 b h r j)
      = Cert.Attn.rScore (fun e => q (ix4 b h r e)) (fun j e => k (ix4 b h j e)) j := by
  rw [val_main_v4_apply, val_main_v2_apply, val_main_v3_apply, scale_eq]
  unfold Cert.Attn.rScore
  simp only [Ideal.mulf_def]
  refine congrArg (· * _) (Finset.sum_congr rfl fun e _ => ?_)
  rw [lidx_v2, ridx_v2]

/-- The row's maximum of the scores, folded from minus infinity. -/
theorem rowmax_eq (q k : Arr) (b : Fin 4) (h : Fin 16) (r : Fin 2048) :
    val_main_v5 (F := Ideal) q k (ix3 b h r)
      = Cert.Attn.rowMax (Cert.Attn.rScore (fun e => q (ix4 b h r e)) (fun j e => k (ix4 b h j e))) := by
  have hr : S4x16x2048x2048.Reduces [3] S4x16x2048 := by decide
  unfold val_main_v5
  refine (Host.reduce_eq_fold_single (α := Ideal .f32) (s := S4x16x2048x2048) (t := S4x16x2048) (u := S_)
    (FloatOps.maximumf (F := Ideal) (φ := .f32)) (val_main_v4 (F := Ideal) q k) (val_main_cst_1 (F := Ideal))
    Facts₀.reducesTo_S4x16x2048x2048_S4x16x2048_d3 hr Facts₀.h_S_ (ix3 b h r)).trans ?_
  show (Finset.univ : Finset (Fin 2048)).fold max (Ideal.ofBits .f32 0xFF800000#32)
      (fun j : Fin 2048 => val_main_v4 (F := Ideal) q k (hr.lift (ix3 b h r) j)) = _
  unfold Cert.Attn.rowMax
  refine congrArg (fun f => (Finset.univ : Finset (Fin 2048)).fold max (Ideal.ofBits .f32 0xFF800000#32) f) ?_
  funext j
  rw [lift_ix3, score_eq]

/-- The maximum subtracted from every score of the row: the row's maximum joined once more with minus infinity. -/
theorem max7_eq (q k : Arr) (b : Fin 4) (h : Fin 16) (r : Fin 2048) :
    val_main_v7 (F := Ideal) q k (ix3 b h r)
      = max (Ideal.ofBits .f32 0xFF800000#32)
          (Cert.Attn.rowMax (Cert.Attn.rScore (fun e => q (ix4 b h r e)) (fun j e => k (ix4 b h j e)))) := by
  rw [val_main_v7_apply, val_main_v6_apply, val_main_cst_2_apply, rowmax_eq]
  simp only [Ideal.maximumf_def, Ideal.ofBits_def]

/-- The weight of key row j. -/
theorem weight_eq (q k : Arr) (b : Fin 4) (h : Fin 16) (r j : Fin 2048) :
    val_main_v11 (F := Ideal) q k (ix4 b h r j)
      = Ideal.exp (Cert.Attn.rScore (fun e => q (ix4 b h r e)) (fun j e => k (ix4 b h j e)) j
          - max (Ideal.ofBits .f32 0xFF800000#32)
              (Cert.Attn.rowMax (Cert.Attn.rScore (fun e => q (ix4 b h r e)) (fun j e => k (ix4 b h j e))))) := by
  rw [val_main_v11_apply, val_main_v10_apply, score_eq, val_main_v9_apply, val_main_v8_apply, idx_v8_v9, max7_eq]
  simp only [Ideal.hostUnary_exp_def, Ideal.subf_def]

/-- The row's sum of weights, added to the f32 zero. -/
theorem denom_eq (q k : Arr) (b : Fin 4) (h : Fin 16) (r j : Fin 2048) :
    val_main_v14 (F := Ideal) q k (ix4 b h r j)
      = Ideal.ofBits .f32 0x00000000#32
          + ∑ j' : Fin 2048,
              Ideal.exp (Cert.Attn.rScore (fun e => q (ix4 b h r e)) (fun j e => k (ix4 b h j e)) j'
                - max (Ideal.ofBits .f32 0xFF800000#32)
                    (Cert.Attn.rowMax (Cert.Attn.rScore (fun e => q (ix4 b h r e)) (fun j e => k (ix4 b h j e))))) := by
  rw [val_main_v14_apply, val_main_v13_apply, idx_v13_v14, val_main_v12_apply, val_main_cst_3_apply]
  simp only [Ideal.ofBits_def]
  refine congrArg (_ + ·) (Finset.sum_congr rfl fun j' _ => ?_)
  rw [idx_v12, weight_eq]

/-! ## The result -/

/-- The reference's result at (b, h, r, d). -/
theorem ref_apply (q k v : (⟨S4x16x2048x64, .f32⟩ : BufTy).Contents (Elt Ideal)) (b : Fin 4) (h : Fin 16) (r : Fin 2048) (d : Fin 64) :
    val_main_v16 (F := Ideal) q k v (ix4 b h r d)
      = Cert.Attn.refElem (fun e => q (ix4 b h r e)) (fun j e => k (ix4 b h j e)) (fun j => v (ix4 b h j d)) := by
  rw [val_main_v16_apply]
  unfold Cert.Attn.refElem
  refine Finset.sum_congr rfl fun j _ => ?_
  rw [lidx_v16, ridx_v16, val_main_v15_apply, weight_eq, denom_eq]
  simp only [Ideal.hostDivf_def]

/-- The reference's result array is the array of those elements. -/
theorem ref_eq (q k v : (⟨S4x16x2048x64, .f32⟩ : BufTy).Contents (Elt Ideal)) :
    val_main_v16 (F := Ideal) q k v = Cert.Attn.attnR q k v := by
  funext i
  have hi : i = ix4 (i 0 : Fin 4) (i 1 : Fin 16) (i 2 : Fin 2048) (i 3 : Fin 64) := eq_ix4 i
  refine (congrArg (val_main_v16 (F := Ideal) q k v) hi).trans ?_
  refine (ref_apply q k v (i 0) (i 1) (i 2) (i 3)).trans ?_
  refine (Cert.Attn.attnR_apply q k v (i 0) (i 1) (i 2) (i 3)).symm.trans ?_
  exact (congrArg (Cert.Attn.attnR q k v) hi).symm

end Cert.ReferenceIdeal.RefValue

end
-- ==== Proof.RowLaw.lean ====
/-
  One output element of scaled dot-product attention is the same extended real in both programs when the query row,
  the key rows and the value column hold real numbers.

  Over the reals the two scores agree: scaling every query entry by 1/8 before the dot product, or the finished dot
  product by 1 / sqrt 64, gives (∑ e, Q e * K j e) * (1/8) either way (distributivity, which the extended reals lack
  at the infinities: hence the hypotheses).  The maximum of a real row, folded from minus infinity over a nonempty index
  set, is a real r; every weight exp (s j - r) is then a positive real, so is their sum L, and dividing by L is
  multiplying by 1/L.  What remains is the identity (∑ P j * V j) * (1/L) = ∑ (P j * (1/L)) * V j in the reals.
-/
import proofs.«427072_j21741124452466_3_alg».proof.Proof.Spec
import Idealize.ShloMosaic.PureOps.Ideal.Laws

namespace Cert.Attn

open Idealize.ShloMosaic

/-! ### The five f32 words -/

/-- The word 0x3E000000 is the dyadic 1/8. -/
theorem ofBits_eighth : Ideal.ofBits .f32 0x3E000000#32 = ((1 / 8 : ℝ) : EReal) := by
  simp [Ideal.ofBits, Ideal.ieee, -EReal.coe_mul]
  norm_num

/-- The word 0x3F800000 is 1. -/
theorem ofBits_one : Ideal.ofBits .f32 0x3F800000#32 = ((1 : ℝ) : EReal) := by
  simp [Ideal.ofBits, Ideal.ieee, -EReal.coe_mul]
  norm_num

/-- The word 0x42800000 is 64. -/
theorem ofBits_sixtyfour : Ideal.ofBits .f32 0x42800000#32 = ((64 : ℝ) : EReal) := by
  simp [Ideal.ofBits, Ideal.ieee, -EReal.coe_mul]
  norm_num

/-- The word 0xFF800000 is minus infinity. -/
theorem ofBits_neg_inf : Ideal.ofBits .f32 0xFF800000#32 = (⊥ : EReal) := by
  simp [Ideal.ofBits, Ideal.ieee]

/-- The host's scale `1 / sqrt 64` is the real 1/8. -/
theorem host_scale :
    Ideal.div (Ideal.ofBits .f32 0x3F800000#32) (Ideal.sqrt (Ideal.ofBits .f32 0x42800000#32)) = ((1 / 8 : ℝ) : EReal) := by
  have h8 : Real.sqrt 64 = 8 := by
    rw [show (64 : ℝ) = 8 * 8 by norm_num]
    exact Real.sqrt_mul_self (by norm_num)
  rw [ofBits_one, ofBits_sixtyfour, Ideal.sqrt_coe, if_neg (by norm_num), h8,
    Ideal.div_coe (by norm_num : (8 : ℝ) ≠ 0), ← EReal.coe_mul, one_mul]

/-! ### Sums and maxima of real rows inside the extended reals -/

/-- A finite sum of reals, taken in the extended reals, is the real sum. -/
theorem coe_sum {ι : Type*} (S : Finset ι) (f : ι → ℝ) :
    (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

/-- Joining a real with the maximum of a real family folded from minus infinity gives a real. -/
theorem max_fold_coe {ι : Type*} [DecidableEq ι] (S : Finset ι) (f : ι → ℝ) :
    ∀ x : ℝ, ∃ r : ℝ, max (x : EReal) (S.fold max ⊥ fun i => (f i : EReal)) = (r : EReal) := by
  induction S using Finset.induction_on with
  | empty => intro x; exact ⟨x, by simp⟩
  | insert a S ha ih =>
    intro x
    obtain ⟨r, hr⟩ := ih (f a)
    refine ⟨max x r, ?_⟩
    rw [Finset.fold_insert ha, hr]
    exact (EReal.coe_strictMono.monotone.map_max).symm

/-- The maximum of a real row over a nonempty index set, folded from minus infinity, is a real. -/
theorem fold_max_coe {ι : Type*} [DecidableEq ι] (S : Finset ι) (hS : S.Nonempty) (f : ι → ℝ) :
    ∃ r : ℝ, (S.fold max ⊥ fun i => (f i : EReal)) = (r : EReal) := by
  obtain ⟨a, ha⟩ := hS
  obtain ⟨r, hr⟩ := max_fold_coe (S.erase a) f (f a)
  refine ⟨r, ?_⟩
  rw [← Finset.insert_erase ha, Finset.fold_insert (Finset.notMem_erase a S)]
  exact hr

/-- The row maximum of a real row of 2048 entries is a real. -/
theorem rowMax_coe (s : Fin 2048 → ℝ) : ∃ r : ℝ, rowMax (fun j => (s j : EReal)) = (r : EReal) := by
  unfold rowMax
  rw [ofBits_neg_inf]
  exact fold_max_coe Finset.univ Finset.univ_nonempty s

/-! ### The two scores of real rows -/

/-- The kernel's score of real rows is the real dot product times 1/8. -/
theorem kScore_coe (Q : Fin 64 → ℝ) (K : Fin 2048 → Fin 64 → ℝ) :
    kScore (fun e => (Q e : EReal)) (fun j e => (K j e : EReal))
      = fun j => (((∑ e, Q e * K j e) * (1 / 8) : ℝ) : EReal) := by
  funext j
  simp only [kScore, ofBits_eighth, ← EReal.coe_mul, coe_sum]
  refine congrArg Real.toEReal ?_
  rw [Finset.sum_mul]
  exact Finset.sum_congr rfl fun e _ => by ring

/-- The reference's score of real rows is the same real. -/
theorem rScore_coe (Q : Fin 64 → ℝ) (K : Fin 2048 → Fin 64 → ℝ) :
    rScore (fun e => (Q e : EReal)) (fun j e => (K j e : EReal))
      = fun j => (((∑ e, Q e * K j e) * (1 / 8) : ℝ) : EReal) := by
  funext j
  simp only [rScore, host_scale, ← EReal.coe_mul, coe_sum]

/-! ### The normalised row -/

/-- For a real score row `s`, a real shift `r` and a real value column `V`: the quotient of the two weighted sums
    is the weighted sum of the normalised weights.  The sum of weights is a positive real, so the division is a
    multiplication by its reciprocal, and the rest is distributivity in the reals. -/
theorem softmax_row (s V : Fin 2048 → ℝ) (r : ℝ) :
    Ideal.div (∑ j : Fin 2048, Ideal.exp ((s j : EReal) - (r : EReal)) * (V j : EReal))
        (∑ j : Fin 2048, Ideal.exp ((s j : EReal) - (r : EReal)) * ((1 : ℝ) : EReal))
      = ∑ j : Fin 2048,
          Ideal.div (Ideal.exp ((s j : EReal) - (r : EReal)))
            (0 + ∑ j' : Fin 2048, Ideal.exp ((s j' : EReal) - (r : EReal))) * (V j : EReal) := by
  have hw : ∀ j, Ideal.exp ((s j : EReal) - (r : EReal)) = ((Real.exp (s j - r) : ℝ) : EReal) := fun j => by
    rw [← EReal.coe_sub, Ideal.exp_coe]
  have hL : (0 : ℝ) < ∑ j : Fin 2048, Real.exp (s j - r) :=
    Finset.sum_pos (fun j _ => Real.exp_pos _) Finset.univ_nonempty
  simp only [hw, zero_add, ← EReal.coe_mul, coe_sum, mul_one, Ideal.div_coe hL.ne']
  refine congrArg Real.toEReal ?_
  rw [Finset.sum_mul]
  exact Finset.sum_congr rfl fun j _ => by ring

/-! ### The element law -/

/-- On real rows the kernel's element and the reference's element are the same extended real. -/
theorem elem_eq (qrow : Fin 64 → EReal) (kmat : Fin 2048 → Fin 64 → EReal) (vcol : Fin 2048 → EReal)
    (hq : ∀ e, ∃ x : ℝ, qrow e = (x : EReal)) (hk : ∀ j e, ∃ x : ℝ, kmat j e = (x : EReal))
    (hv : ∀ j, ∃ x : ℝ, vcol j = (x : EReal)) :
    kernelElem qrow kmat vcol = refElem qrow kmat vcol := by
  choose Q hQ using hq
  choose K hK using hk
  choose V hV using hv
  obtain rfl : qrow = fun e => (Q e : EReal) := funext hQ
  obtain rfl : kmat = fun j e => (K j e : EReal) := funext fun j => funext (hK j)
  obtain rfl : vcol = fun j => (V j : EReal) := funext hV
  obtain ⟨r, hr⟩ := rowMax_coe fun j => (∑ e, Q e * K j e) * (1 / 8)
  unfold kernelElem refElem
  rw [kScore_coe, rScore_coe, hr, ofBits_neg_inf, Ideal.ofBits_zero_f32, ofBits_one, max_eq_right bot_le]
  exact softmax_row _ V r

end Cert.Attn
-- ==== Proof.Finite.lean ====
/-
  From the precondition to the finiteness of the inputs.

  The precondition is, for each of the three argument arrays `x`, the statement `all (|x| < +∞)`, the three joined
  by `and`.  On the extended reals `|a|` is `max a (-a)`, which is `⊤` at both infinities, so `|a| < ⊤` holds exactly
  when `a` is a real number.  Reading the conjunction apart, then each `all` at an index, then the comparison at that
  index, gives: every entry of every argument is (the coercion of) a real.
-/
import proofs.«427072_j21741124452466_3_alg».proof.Pre_finite_inputs
import proofs.«427072_j21741124452466_3_alg».proof.Proof.Gen.Pre_finite_inputs
import Idealize.ShloMosaic.Lib.ReduceAll
import Idealize.ShloMosaic.Lib.ValueIdx
import Idealize.ShloMosaic.PureOps.Ideal.Laws

namespace Cert.Attn

open Idealize.ShloMosaic Idealize.ShloMosaic.ValueIdx
open Cert.Pre_finite_inputs (S4x16x2048x64 S_)

/-- The f32 word 0x7F800000 is plus infinity. -/
theorem ofBits_posInf : Ideal.ofBits .f32 0x7F800000#32 = (⊤ : EReal) := by
  simp [Ideal.ofBits, Ideal.ieee]

/-- An extended real whose absolute value `max a (-a)` compares below `⊤` is a real number: at `⊥` and at `⊤` the
absolute value is `⊤` itself. -/
theorem real_of_abs_lt_top (a : EReal) (h : Ideal.cmp .olt (max a (-a)) ⊤ = 1#1) : ∃ r : ℝ, a = (r : EReal) := by
  induction a using EReal.rec with
  | bot => exfalso; revert h; simp [Ideal.cmp]
  | coe r => exact ⟨r, rfl⟩
  | top => exfalso; revert h; simp [Ideal.cmp]

/-- The rank-0 shape has one index. -/
instance subsingleton_idx_S_ : Subsingleton S_.Idx := ⟨fun a b => funext fun d => d.elim0⟩

/-- One argument: if `all (|x| < +∞)` came out true, every entry of `x` is a real number. -/
theorem real_of_all_lt (x : FVec Ideal S4x16x2048x64 .f32)
    (hb : S_.BroadcastsInDim S4x16x2048x64 (![] : Fin 0 → Fin S4x16x2048x64.rank))
    {axes : List (Fin S4x16x2048x64.rank)} (hr : S4x16x2048x64.ReducesTo axes S_) (hu : 0 < S_.numel)
    (init : IVec S_ 1)
    (h : Host.reduce IntOp.andi
          (cmpf .olt (Host.absf x) (broadcastInDim S4x16x2048x64 ![] hb (constant S_ .f32 0x7F800000#32)))
          init hr hu ix0 = 1#1) :
    ∀ i, ∃ r : ℝ, x i = (r : EReal) := by
  intro i
  have e := Host.reduce_andi_all _ init hr hu ix0 h i
  refine real_of_abs_lt_top (x i) ?_
  rw [← ofBits_posInf]
  exact e

/-- The precondition makes every entry of the three arguments a real number. -/
theorem real_of_pre (q k v : FVec Ideal S4x16x2048x64 .f32)
    (h : Cert.Pre_finite_inputs.fn (F := Ideal) q k v = fun _ => 1#1) :
    (∀ i, ∃ x : ℝ, q i = (x : EReal)) ∧ (∀ i, ∃ x : ℝ, k i = (x : EReal)) ∧ (∀ i, ∃ x : ℝ, v i = (x : EReal)) := by
  have h0 := congrFun h ix0
  dsimp only [Cert.Pre_finite_inputs.fn] at h0
  obtain ⟨h12, h3⟩ := IntOp.andi_eq_one.1 h0
  obtain ⟨h1, h2⟩ := IntOp.andi_eq_one.1 h12
  exact ⟨real_of_all_lt q _ _ _ _ h1, real_of_all_lt k _ _ _ _ h2, real_of_all_lt v _ _ _ _ h3⟩

end Cert.Attn
-- ==== Proof.lean ====
/-
  Scaled dot-product attention: a kernel that fuses the softmax denominator into its second matrix product, against
  the unfused reference `softmax (q kᵀ / sqrt 64) v`, over inputs [4, 16, 2048, 64], on the extended reals.

  The kernel program regroups batch and head into 64 heads, appends a column of ones to the values, and for 512 query
  rows of one head at a time computes the scores `(q · 1/8) kᵀ`, subtracts each row's maximum, exponentiates, multiplies
  the weights into the widened values and divides the first 64 columns of the product by its last column, which is the
  row's sum of weights.  The reference scales `q kᵀ` by the host's `1 / sqrt 64`, normalises the weights by their row sum
  and only then multiplies them into the values.  With finite inputs every score is a real number, the row maximum is a
  real, the weights are positive reals and so is their sum `L`; the two results are then `(∑ P j * V j) / L` and
  `∑ (P j / L) * V j` over the reals, which agree (`Cert.Attn.elem_eq`).  The precondition is used exactly there: for
  distributivity in the scores and in the final quotient, which the extended reals lack at the infinities.

  The three frames: the kernel programs' are the generated frame certificates; the reference's is its generated run
  with the result dropped.  No operation of the kernel was rewritten by the idealization, so that claim is `True`.
-/
import proofs.«427072_j21741124452466_3_alg».proof.Defs
import proofs.«427072_j21741124452466_3_alg».proof.Proof.Gen.Kernel
import proofs.«427072_j21741124452466_3_alg».proof.Proof.Gen.Kernel.Skeleton
import proofs.«427072_j21741124452466_3_alg».proof.Proof.Gen.Kernel.Launch
import proofs.«427072_j21741124452466_3_alg».proof.Proof.Gen.Kernel.Points
import proofs.«427072_j21741124452466_3_alg».proof.Proof.Gen.Kernel.Frame
import proofs.«427072_j21741124452466_3_alg».proof.Proof.Gen.KernelIdeal
import proofs.«427072_j21741124452466_3_alg».proof.Proof.Gen.KernelIdeal.Skeleton
import proofs.«427072_j21741124452466_3_alg».proof.Proof.Gen.KernelIdeal.Launch
import proofs.«427072_j21741124452466_3_alg».proof.Proof.Gen.KernelIdeal.Points
import proofs.«427072_j21741124452466_3_alg».proof.Proof.Gen.KernelIdeal.Frame
import proofs.«427072_j21741124452466_3_alg».proof.Proof.Gen.ReferenceIdeal
import proofs.«427072_j21741124452466_3_alg».proof.Proof.Gen.ReferenceIdeal.Run
import proofs.«427072_j21741124452466_3_alg».proof.Proof.Gen.ReferenceIdeal.Read
import proofs.«427072_j21741124452466_3_alg».proof.Proof.Gen.Pre_finite_inputs
import proofs.«427072_j21741124452466_3_alg».proof.Proof.KernelRun
import proofs.«427072_j21741124452466_3_alg».proof.Proof.RefRead
import proofs.«427072_j21741124452466_3_alg».proof.Proof.RowLaw
import proofs.«427072_j21741124452466_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and keeps its arguments: the generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- With finite inputs the two result arrays are one array: both are the attention of the three arguments, element by
    element the same extended real. -/
theorem attn_eq (q k v : Cert.Attn.SQ.Idx → EReal)
    (hq : ∀ i, ∃ x : ℝ, q i = (x : EReal)) (hk : ∀ i, ∃ x : ℝ, k i = (x : EReal)) (hv : ∀ i, ∃ x : ℝ, v i = (x : EReal)) :
    Cert.Attn.attnR q k v = Cert.Attn.attnK q k v := by
  funext i
  obtain ⟨b, h, s, d, rfl⟩ : ∃ (b : Fin 4) (h : Fin 16) (s : Fin 2048) (d : Fin 64), i = ix4 b h s d :=
    ⟨i 0, i 1, i 2, i 3, eq_ix4 i⟩
  rw [Cert.Attn.attnR_apply, Cert.Attn.attnK_apply]
  exact (Cert.Attn.elem_eq _ _ _ (fun e => hq _) (fun j e => hk _) (fun j => hv _)).symm

/-- Both idealized programs end with the attention of the arguments in their result buffer. -/
theorem algebraic : Cert.algebraic_KernelIdeal_ReferenceIdeal := by
  intro m ρ m' ρ' hpre hagree
  refine ⟨fun c => Cert.Attn.attnK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v16_eq _ _ _).trans ?_
  rw [(hagree c).1, (hagree c).2.1, (hagree c).2.2, Cert.ReferenceIdeal.RefValue.ref_eq]
  obtain ⟨hq, hk, hv⟩ := Cert.Attn.real_of_pre _ _ _ (hpre c)
  exact attn_eq _ _ _ hq hk hv

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
